-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3200000 : Shape := ⟨1, ![3200000]⟩
abbrev S100000x64 : Shape := ⟨2, ![100000, 64]⟩
abbrev S64x64 : Shape := ⟨2, ![64, 64]⟩
abbrev S64 : Shape := ⟨1, ![64]⟩
abbrev S_ : Shape := ⟨0, ![]⟩

class Facts : Prop where
  bcast_S_S3200000 : S_.BroadcastsInDim S3200000 (![] : Fin 0 → Fin S3200000.rank)
  reducesTo_S3200000_S_d0 : S3200000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : IVec S3200000 32) (main_arg1 : IVec S3200000 32) (main_arg2 : FVec F S3200000 .f32) (main_arg3 : FVec F S100000x64 .f32) (main_arg4 : FVec F S64x64 .f32) (main_arg5 : FVec F S64 .f32) (main_arg6 : FVec F S64x64 .f32) (main_arg7 : FVec F S64 .f32) : IVec S_ 1 :=
  let main_v0 : FVec F S3200000 .f32 := Host.absf main_arg2
  let main_cst : FVec F S_ .f32 := constant S_ .f32 0x7F800000#32
  let main_v1 : FVec F S3200000 .f32 := broadcastInDim S3200000 ![] bcast_S_S3200000 main_cst
  let main_v2 : IVec S3200000 1 := cmpf .olt main_v0 main_v1
  let main_c : IVec S_ 1 := constantI S_ 1 1#1
  let main_v3 : IVec S_ 1 := (fun x v => Host.reduce IntOp.andi x v reducesTo_S3200000_S_d0 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S3200000 : Shape := ⟨1, ![3200000]⟩
abbrev S100000x64 : Shape := ⟨2, ![100000, 64]⟩
abbrev S64x64 : Shape := ⟨2, ![64, 64]⟩
abbrev S64 : Shape := ⟨1, ![64]⟩
abbrev S3200000x1 : Shape := ⟨2, ![3200000, 1]⟩
abbrev S_ : Shape := ⟨0, ![]⟩
abbrev S3200000x64 : Shape := ⟨2, ![3200000, 64]⟩
abbrev S1x64 : Shape := ⟨2, ![1, 64]⟩
abbrev S10000x64 : Shape := ⟨2, ![10000, 64]⟩

abbrev nBuf : Space → Nat
  | .hbm => 27
  | .vmem => 10
  | .smem => 0
  | _ => 0

abbrev bufTy : (tb : Table) → Fin (tcTables nBuf tb) → BufTy
  | .hbm, ⟨0, _⟩ => ⟨S3200000, .i32⟩
  | .hbm, ⟨1, _⟩ => ⟨S3200000, .i32⟩
  | .hbm, ⟨2, _⟩ => ⟨S3200000, .f32⟩
  | .hbm, ⟨3, _⟩ => ⟨S100000x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S3200000x1, .f32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S3200000x64, .f32⟩
  | .hbm, ⟨18, _⟩ => ⟨S3200000x64, .f32⟩
  | .hbm, ⟨19, _⟩ => ⟨S3200000x64, .f32⟩
  | .hbm, ⟨20, _⟩ => ⟨S_, .f32⟩
  | .hbm, ⟨21, _⟩ => ⟨S100000x64, .f32⟩
  | .hbm, ⟨22, _⟩ => ⟨S3200000x1, .i32⟩
  | .hbm, ⟨23, _⟩ => ⟨S100000x64, .f32⟩
  | .hbm, ⟨24, _⟩ => ⟨S1x64, .f32⟩
  | .hbm, ⟨25, _⟩ => ⟨S1x64, .f32⟩
  | .hbm, ⟨26, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | _, _ => ⟨S3200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg3) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S3200000 : Shape := ⟨1, ![3200000]⟩
abbrev S100000x64 : Shape := ⟨2, ![100000, 64]⟩
abbrev S64x64 : Shape := ⟨2, ![64, 64]⟩
abbrev S64 : Shape := ⟨1, ![64]⟩
abbrev S3200000x1 : Shape := ⟨2, ![3200000, 1]⟩
abbrev S_ : Shape := ⟨0, ![]⟩
abbrev S3200000x64 : Shape := ⟨2, ![3200000, 64]⟩
abbrev S1x64 : Shape := ⟨2, ![1, 64]⟩

abbrev nBuf : Space → Nat
  | .hbm => 35
  | .vmem => 0
  | .smem => 0
  | _ => 0

abbrev bufTy : (tb : Table) → Fin (tcTables nBuf tb) → BufTy
  | .hbm, ⟨0, _⟩ => ⟨S3200000, .i32⟩
  | .hbm, ⟨1, _⟩ => ⟨S3200000, .i32⟩
  | .hbm, ⟨2, _⟩ => ⟨S3200000, .f32⟩
  | .hbm, ⟨3, _⟩ => ⟨S100000x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S3200000x1, .f32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S3200000x64, .f32⟩
  | .hbm, ⟨18, _⟩ => ⟨S3200000x64, .f32⟩
  | .hbm, ⟨19, _⟩ => ⟨S3200000x64, .f32⟩
  | .hbm, ⟨20, _⟩ => ⟨S_, .f32⟩
  | .hbm, ⟨21, _⟩ => ⟨S100000x64, .f32⟩
  | .hbm, ⟨22, _⟩ => ⟨S3200000x1, .i32⟩
  | .hbm, ⟨23, _⟩ => ⟨S100000x64, .f32⟩
  | .hbm, ⟨24, _⟩ => ⟨S100000x64, .f32⟩
  | .hbm, ⟨25, _⟩ => ⟨S100000x64, .f32⟩
  | .hbm, ⟨26, _⟩ => ⟨S1x64, .f32⟩
  | .hbm, ⟨27, _⟩ => ⟨S100000x64, .f32⟩
  | .hbm, ⟨28, _⟩ => ⟨S100000x64, .f32⟩
  | .hbm, ⟨29, _⟩ => ⟨S100000x64, .f32⟩
  | .hbm, ⟨30, _⟩ => ⟨S100000x64, .f32⟩
  | .hbm, ⟨31, _⟩ => ⟨S1x64, .f32⟩
  | .hbm, ⟨32, _⟩ => ⟨S100000x64, .f32⟩
  | .hbm, ⟨33, _⟩ => ⟨S100000x64, .f32⟩
  | .hbm, ⟨34, _⟩ => ⟨S100000x64, .f32⟩
  | _, _ => ⟨S3200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Layer.lean ====
/-
  The dense stage of the bilinear graph layer, as one function of its inputs.

  For a node r with feature row f and aggregated-neighbour row x (both indexed by the 64 feature positions), and
  for an output column c with weight columns w1, w2 and bias entries b1, b2, the layer's entry is

      (Σₖ (f k + x k) · w1 k  +  b1)  +  (Σₖ (x k · f k) · w2 k  +  b2)

  over the extended reals. `entry` is that expression of two rows, two columns and two scalars; `out` reads it off
  whole arrays: a [100000, 64] feature array, a [100000, 64] aggregated array, two [64, 64] weight matrices and two
  bias vectors of length 64. Nothing here depends on a program: each side of the certificate is shown to be `out`.
-/
import Idealize.ShloMosaic.PureOps.Ideal
import Idealize.ShloMosaic.Lib.ValueIdx

noncomputable section

open scoped BigOperators

namespace Cert.Layer

open Idealize.ShloMosaic Idealize.ShloMosaic.ValueIdx

/-- One output entry from a feature row, an aggregated row, a column of each weight matrix and the two bias
    entries of that column. -/
def entry (f x w1 w2 : Fin 64 → EReal) (b1 b2 : EReal) : EReal :=
  ((∑ k : Fin 64, (f k + x k) * w1 k) + b1) + ((∑ k : Fin 64, (x k * f k) * w2 k) + b2)

/-- The row coordinate of an index of a [100000, 64] array, as a number below 100000. -/
abbrev rowOf (i : (⟨2, ![100000, 64]⟩ : Shape).Idx) : Fin 100000 := ⟨(i 0).val, idx2_lt0 i⟩
/-- Its column coordinate, as a number below 64. -/
abbrev colOf (i : (⟨2, ![100000, 64]⟩ : Shape).Idx) : Fin 64 := ⟨(i 1).val, idx2_lt1 i⟩

/-- The whole [100000, 64] output: entry (r, c) is `entry` of row r of the features and of the aggregated
    array, column c of each weight matrix, and entry c of each bias. -/
def out (feat agg : (⟨2, ![100000, 64]⟩ : Shape).Idx → EReal) (W1 W2 : (⟨2, ![64, 64]⟩ : Shape).Idx → EReal)
    (b1 b2 : (⟨1, ![64]⟩ : Shape).Idx → EReal) : (⟨2, ![100000, 64]⟩ : Shape).Idx → EReal := fun i =>
  entry (fun k => feat (ix2 (rowOf i) k)) (fun k => agg (ix2 (rowOf i) k)) (fun k => W1 (ix2 k (colOf i)))
    (fun k => W2 (ix2 k (colOf i))) (b1 (ix1 (colOf i))) (b2 (ix1 (colOf i)))

/-- `entry` depends on its rows and columns only through their values. -/
theorem entry_congr {f f' x x' w1 w1' w2 w2' : Fin 64 → EReal} {b1 b1' b2 b2' : EReal}
    (hf : ∀ k, f k = f' k) (hx : ∀ k, x k = x' k) (h1 : ∀ k, w1 k = w1' k) (h2 : ∀ k, w2 k = w2' k)
    (hb1 : b1 = b1') (hb2 : b2 = b2') : entry f x w1 w2 b1 b2 = entry f' x' w1' w2' b1' b2' := by
  obtain rfl : f = f' := funext hf
  obtain rfl : x = x' := funext hx
  obtain rfl : w1 = w1' := funext h1
  obtain rfl : w2 = w2' := funext h2
  rw [hb1, hb2]

end Cert.Layer

end
-- ==== Proof.Payload.lean ====
/-
  What the kernel body stores, read at one entry of a block.

  The body loads a [10000, 64] block `fb` of the features and the matching block `xb` of the aggregated array, both
  [64, 64] weight matrices and both [1, 64] bias rows, and stores

      ((fb + xb) · W1 + b1) + ((xb ∘ fb) · W2 + b2)

  where · is the matrix product into a zero accumulator, ∘ the entrywise product, and each bias row is repeated down
  the 10000 rows. Over the extended reals a change of float format is the identity and the matrix product at (p, q) is
  the plain sum over the 64 contraction positions, so the stored block at (p, q) is `Layer.entry` of row p of the two
  blocks, column q of the two weight matrices and entry (0, q) of the two bias rows.
-/
import proofs.«141408_j23098334118568_1_alg».proof.Proof.Gen.KernelIdeal.Skeleton
import proofs.«141408_j23098334118568_1_alg».proof.Proof.Layer
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-! ## The body's matrix product at an entry -/

/-- The left operand's index at output (p, q) and contraction index s has row p … -/
theorem lhs_row (i : S10000x64.Idx) (s : dot_S10000x64_S64x64_S10000x64_1_0_0_1_n_n.contr.Idx) :
    (dot_S10000x64_S64x64_S10000x64_1_0_0_1_n_n.lhsIdx i s 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and column s; -/
theorem lhs_col (i : S10000x64.Idx) (s : dot_S10000x64_S64x64_S10000x64_1_0_0_1_n_n.contr.Idx) :
    (dot_S10000x64_S64x64_S10000x64_1_0_0_1_n_n.lhsIdx i s 1).val = (s ⟨0, by decide⟩).val :=
  dot_S10000x64_S64x64_S10000x64_1_0_0_1_n_n.lhsIdx_val_of_single rfl i s
/-- the right operand's has row s … -/
theorem rhs_row (i : S10000x64.Idx) (s : dot_S10000x64_S64x64_S10000x64_1_0_0_1_n_n.contr.Idx) :
    (dot_S10000x64_S64x64_S10000x64_1_0_0_1_n_n.rhsIdx i s 0).val = (s ⟨0, by decide⟩).val :=
  dot_S10000x64_S64x64_S10000x64_1_0_0_1_n_n.rhsIdx_val_of_single rfl i s
/-- … and column q. -/
theorem rhs_col (i : S10000x64.Idx) (s : dot_S10000x64_S64x64_S10000x64_1_0_0_1_n_n.contr.Idx) :
    (dot_S10000x64_S64x64_S10000x64_1_0_0_1_n_n.rhsIdx i s 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The body's matrix product into the zero accumulator, at (p, q): the sum over the 64 contraction positions k of the
    left operand at (p, k) times the right operand at (k, q). -/
theorem matmul_at {φ₁ φ₂ : FTy} (a : FVec Ideal S10000x64 φ₁) (w : FVec Ideal S64x64 φ₂) (p : Fin 10000) (q : Fin 64) :
    matmul dot_S10000x64_S64x64_S10000x64_1_0_0_1_n_n none a w (constant S10000x64 .f32 0x00000000#32) (ix2 p q)
      = ∑ k : Fin 64, a (ix2 p k) * w (ix2 k q) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun ax => Fin.ext (by
    match ax with
    | ⟨0, _⟩ => exact lhs_row _ _
    | ⟨1, _⟩ => exact (lhs_col _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun ax => Fin.ext (by
    match ax with
    | ⟨0, _⟩ => exact (rhs_row _ _).trans hk
    | ⟨1, _⟩ => exact rhs_col _ _)
  rw [el, er]

/-! ## The stored block at an entry -/

/-- A bias row repeated down the block's rows, read at (p, q): the row's entry (0, q). -/
theorem bias_at (r : Vec Ideal S1x64 .f32) (p : Fin 10000) (q : Fin 64) :
    broadcastTo S10000x64 r broadcasts_S1x64_S10000x64 (ix2 p q) = r (ix2 (0 : Fin 1) q) :=
  broadcastTo_1b_ab_apply r broadcasts_S1x64_S10000x64 p q

/-- THE STORED BLOCK AT (p, q): `Layer.entry` of row p of the feature block and of the aggregated block, column q of the
    two weight matrices, and entry (0, q) of the two bias rows. -/
theorem pay_at (fb xb : Vec Ideal S10000x64 .f32) (w1 w2 : Vec Ideal S64x64 .f32) (r1 r2 : Vec Ideal S1x64 .f32)
    (p : Fin 10000) (q : Fin 64) :
    k0_pay1 (F := Ideal) fb xb w1 w2 r1 r2 (ix2 p q)
      = Cert.Layer.entry (fun k => fb (ix2 p k)) (fun k => xb (ix2 p k)) (fun k => w1 (ix2 k q)) (fun k => w2 (ix2 k q))
          (r1 (ix2 (0 : Fin 1) q)) (r2 (ix2 (0 : Fin 1) q)) := by
  unfold k0_pay1 Cert.Layer.entry
  simp only [shapeCast_self]
  rw [addf_apply, addf_apply, addf_apply, matmul_at, matmul_at, bias_at, bias_at]
  rfl

end Cert.KernelIdeal.Payload

end
-- ==== Proof.KernelValue.lean ====
/-
  The kernel's result array, read as the layer's function.

  The output has 100000 rows; the grid has 10 points and point t writes rows 10000·t … 10000·t + 9999, all 64 columns.
  At point t the feature window and the aggregated window hold the same rows of their arrays, the two weight windows
  hold their whole matrices, and the two bias windows hold the biases as one row each (the host reshapes a bias of
  length 64 to [1, 64] before the call). So what point t writes back, at (p, q) of its block, is `Layer.entry` of row
  10000·t + p of the features and of the aggregated array, column q of the weights and entry q of the biases: block t of
  `Layer.out`. The ten blocks tile the array, hence the array ends holding `Layer.out`.
-/
import proofs.«141408_j23098334118568_1_alg».proof.Proof.Gen.KernelIdeal.Value
import proofs.«141408_j23098334118568_1_alg».proof.Proof.Payload
import Idealize.ShloMosaic.Lib.StableHlo.Run
import Idealize.ShloMosaic.Lib.ValueLayout

noncomputable section

open scoped BigOperators

namespace Cert.KernelIdeal.KernelValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Layer (rowOf colOf)

variable (m : (ℓ : Loc nD τ sig) → Buf (Elt Ideal) ℓ) (ρ : Dev nD → PrngReg)

/-! ## The arrays the host prepares before the call -/

/-- The first bias as the call finds it: the length-64 argument laid out as one row. -/
theorem bias1_row (c : Dev nD) :
    V m c main_v13 = shapeCast S1x64 (m ((c : Thread nD τ).loc main_arg5)) shapeCasts_S64_S1x64 := by
  dsimp only [Gen.V, Gen.hostOps0]; after_results; rfl

/-- The second bias likewise. -/
theorem bias2_row (c : Dev nD) :
    V m c main_v14 = shapeCast S1x64 (m ((c : Thread nD τ).loc main_arg7)) shapeCasts_S64_S1x64 := by
  dsimp only [Gen.V, Gen.hostOps0]; after_results; rfl

/-! ## Where the windows sit at a grid point -/

/-- The block indices, decided over the ten points: the feature, aggregated and output windows are at row block t,
    the weights and biases at their one block. -/
theorem block_positions : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem origin_zero : (![0, 0] : Fin 2 → Nat) = fun _ => 0 := funext fun a => by fin_cases a <;> rfl

/-! ## The result array -/

/-- `Layer.out` of the feature argument, an aggregated array X, the two weight arguments and the two bias arguments. -/
def resultOf (c : Dev nD) (X : Buf (Elt Ideal) ((c : Thread nD τ).loc (Pipeline.arrRef spec0 1))) :
    Buf (Elt Ideal) ((c : Thread nD τ).loc main_v15) :=
  Cert.Layer.out (m ((c : Thread nD τ).loc main_arg3)) X (m ((c : Thread nD τ).loc main_arg4))
    (m ((c : Thread nD τ).loc main_arg6)) (m ((c : Thread nD τ).loc main_arg5)) (m ((c : Thread nD τ).loc main_arg7))

/-- What the output array ends holding: that function of the aggregated array as the call finds it. -/
def result (c : Dev nD) : Buf (Elt Ideal) ((c : Thread nD τ).loc main_v15) :=
  resultOf m c (V m c (Pipeline.arrRef spec0 1))

/-- One point's body result, read through the output window's block, over ANY aggregated array X whose block at the
    point is `xb`: it is block t of `resultOf X`. (X stays a variable: the host's gather and scatter are not looked at.) -/
theorem written_back_of (c : Dev nD) (t : Fin cfg0.N) (X : Buf (Elt Ideal) ((c : Thread nD τ).loc (Pipeline.arrRef spec0 1)))
    (xb : Vec Ideal S10000x64 .f32) (hx : xb = ((cfg0.win 1).blk t).view.read (Elt Ideal) X) :
    (cfg0.win 6).cut (grid0.coords t)
        (k0_pay1 (F := Ideal) (iblk m c 0 t) xb (iblk m c 2 t) (iblk m c 4 t) (iblk m c 3 t) (iblk m c 5 t))
      = ((cfg0.win 6).blk t).view.read (Elt Ideal) (resultOf m c X) := by
  subst hx
  obtain ⟨f0, f1, x0, x1, a0, a1, b0, b1, d0, d1, g0, g1, e0, e1⟩ := block_positions t
  funext j
  obtain ⟨p, q, rfl⟩ : ∃ (p : Fin 10000) (q : Fin 64), j = ix2 p q := ⟨j 0, j 1, eq_ix2 j⟩
  show k0_pay1 (F := Ideal) (iblk m c 0 t) (((cfg0.win 1).blk t).view.read (Elt Ideal) X) (iblk m c 2 t) (iblk m c 4 t)
      (iblk m c 3 t) (iblk m c 5 t) (ix2 p q)
    = resultOf m c X (((cfg0.win 6).blk t).view.emb (ix2 p q))
  refine (Payload.pay_at (iblk m c 0 t) (((cfg0.win 1).blk t).view.read (Elt Ideal) X) (iblk m c 2 t) (iblk m c 4 t)
    (iblk m c 3 t) (iblk m c 5 t) p q).trans ?_
  unfold resultOf Cert.Layer.out
  refine Cert.Layer.entry_congr (fun k => ?_) (fun k => ?_) (fun k => ?_) (fun k => ?_) ?_ ?_
  · show V m c main_arg3 (((cfg0.win 0).blk t).view.emb (ix2 p k)) = _
    rw [V_main_arg3]
    refine congrArg (m ((c : Thread nD τ).loc main_arg3)) (funext fun a => Fin.ext ?_)
    match a with
    | ⟨0, _⟩ =>
      show win0_0.index t (0 : Fin 2) * 10000 + 1 * p.val = win0_6.index t (0 : Fin 2) * 10000 + 1 * p.val
      rw [f0, e0]
    | ⟨1, _⟩ =>
      show win0_0.index t (1 : Fin 2) * 64 + 1 * k.val = k.val
      rw [f1]; omega
  · show X (((cfg0.win 1).blk t).view.emb (ix2 p k)) = _
    refine congrArg X (funext fun a => Fin.ext ?_)
    match a with
    | ⟨0, _⟩ =>
      show win0_1.index t (0 : Fin 2) * 10000 + 1 * p.val = win0_6.index t (0 : Fin 2) * 10000 + 1 * p.val
      rw [x0, e0]
    | ⟨1, _⟩ =>
      show win0_1.index t (1 : Fin 2) * 64 + 1 * k.val = k.val
      rw [x1]; omega
  · show V m c main_arg4 (((cfg0.win 2).blk t).view.emb (ix2 k q)) = _
    rw [V_main_arg4]
    refine congrArg (m ((c : Thread nD τ).loc main_arg4)) (funext fun a => Fin.ext ?_)
    match a with
    | ⟨0, _⟩ =>
      show win0_2.index t (0 : Fin 2) * 64 + 1 * k.val = k.val
      rw [a0]; omega
    | ⟨1, _⟩ =>
      show win0_2.index t (1 : Fin 2) * 64 + 1 * q.val = win0_6.index t (1 : Fin 2) * 64 + 1 * q.val
      rw [a1, e1]
  · show V m c main_arg6 (((cfg0.win 4).blk t).view.emb (ix2 k q)) = _
    rw [V_main_arg6]
    refine congrArg (m ((c : Thread nD τ).loc main_arg6)) (funext fun a => Fin.ext ?_)
    match a with
    | ⟨0, _⟩ =>
      show win0_4.index t (0 : Fin 2) * 64 + 1 * k.val = k.val
      rw [d0]; omega
    | ⟨1, _⟩ =>
      show win0_4.index t (1 : Fin 2) * 64 + 1 * q.val = win0_6.index t (1 : Fin 2) * 64 + 1 * q.val
      rw [d1, e1]
  · show V m c main_v13 (((cfg0.win 3).blk t).view.emb (ix2 (0 : Fin 1) q)) = _
    rw [bias1_row]
    have e : ((cfg0.win 3).blk t).view.emb (ix2 (0 : Fin 1) q)
        = ix2 (0 : Fin 1) (colOf (((cfg0.win 6).blk t).view.emb (ix2 p q))) := funext fun a => Fin.ext (by
      match a with
      | ⟨0, _⟩ =>
        show win0_3.index t (0 : Fin 2) * 1 + 1 * 0 = 0
        rw [b0]
      | ⟨1, _⟩ =>
        show win0_3.index t (1 : Fin 2) * 64 + 1 * q.val = win0_6.index t (1 : Fin 2) * 64 + 1 * q.val
        rw [b1, e1])
    rw [e]
    exact shapeCast_a_1a_apply _ _ _ _
  · show V m c main_v14 (((cfg0.win 5).blk t).view.emb (ix2 (0 : Fin 1) q)) = _
    rw [bias2_row]
    have e : ((cfg0.win 5).blk t).view.emb (ix2 (0 : Fin 1) q)
        = ix2 (0 : Fin 1) (colOf (((cfg0.win 6).blk t).view.emb (ix2 p q))) := funext fun a => Fin.ext (by
      match a with
      | ⟨0, _⟩ =>
        show win0_5.index t (0 : Fin 2) * 1 + 1 * 0 = 0
        rw [g0]
      | ⟨1, _⟩ =>
        show win0_5.index t (1 : Fin 2) * 64 + 1 * q.val = win0_6.index t (1 : Fin 2) * 64 + 1 * q.val
        rw [g1, e1])
    rw [e]
    exact shapeCast_a_1a_apply _ _ _ _

/-- WHAT POINT t WRITES BACK is block t of `result`: the body's stores are one whole-block store of its payload, over
    the windows' blocks at the point. -/
theorem written_back (c : Dev nD) (t : Fin cfg0.N) :
    (dats m 0 c).flushed 6 t = ((cfg0.win 6).blk t).view.read (Elt Ideal) (result m c) := by
  rw [Value.flushed6]
  unfold out0_6
  rw [View.canon_unit_zero origin_zero]
  simp only [View.ld_unit_zero (S := S10000x64) origin_zero, View.ld_unit_zero (S := S64x64) origin_zero, View.ld_unit_zero (S := S1x64) origin_zero]
  exact written_back_of m c t (V m c (Pipeline.arrRef spec0 1)) (iblk m c 1 t) rfl

/-- An index of the array is in point t's block iff each coordinate is in the block's range on its axis. -/
theorem mem_row_block (t : Fin cfg0.N) (i : S100000x64.Idx) :
    i ∈ ((cfg0.win 6).blk t).view.set ↔ ∀ a : Fin 2, win0_6.index t a * S10000x64.size a ≤ (i a).val
      ∧ (i a).val < win0_6.index t a * S10000x64.size a + S10000x64.size a := by
  show i ∈ ((View.whole main_v15).slice (win0_6.rect t)).set ↔ _
  rw [View.set_slice_whole, Rect.mem_set_unit]
  exact Iff.rfl

/-- Every index of the array lies in the block of the point its row falls in. -/
theorem rows_covered (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : grid0.N = 10 := N_0
  let t : Fin cfg0.N := ⟨(i 0).val / 10000, by show (i 0).val / 10000 < grid0.N; rw [hN]; omega⟩
  obtain ⟨-, -, -, -, -, -, -, -, -, -, -, -, e0, e1⟩ := block_positions t
  have e0' : win0_6.index t (0 : Fin 2) = (i 0).val / 10000 := e0
  refine ⟨t, flush0_6 t, ?_⟩
  rw [mem_row_block]
  intro a
  match a with
  | ⟨0, _⟩ =>
    show win0_6.index t (0 : Fin 2) * 10000 ≤ (i 0).val ∧ (i 0).val < win0_6.index t (0 : Fin 2) * 10000 + 10000
    rw [e0']; omega
  | ⟨1, _⟩ =>
    show win0_6.index t (1 : Fin 2) * 64 ≤ (i 1).val ∧ (i 1).val < win0_6.index t (1 : Fin 2) * 64 + 64
    rw [e1]; omega

/-- THE ARRAY after the run is `result`. -/
theorem array_eq_result (c : Dev nD) : (dats m 0 c).arrAt 6 cfg0.N = result m c :=
  (dats m 0 c).arrAt_eq_of_cover 6 (result m c) (fun t _ => written_back m c t) rows_covered

/-- The kernel's run: it terminates with the output array at `result` and the arguments as launched. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (array_eq_result m c), (h c).2⟩) (Value.run_blocks m ρ)

end Cert.KernelIdeal.KernelValue

end
-- ==== Proof.RefValue.lean ====
/-
  The reference program's result, read as the layer's function.

  The reference aggregates neighbour features into an array X (a gather of feature rows, a scaling by the edge
  values and a scatter-add into node rows), then forms (features + X) · W1 + b1 and (X ∘ features) · W2 + b2 with the
  host's matrix product and adds the two. Read entry by entry over the extended reals, with the host's matrix product
  the plain sum over the 64 contraction positions and each bias repeated down the rows, that is `Layer.out` of the
  features, X, the weights and the biases. X itself is never opened: it enters only as an array.
-/
import proofs.«141408_j23098334118568_1_alg».proof.Proof.Gen.ReferenceIdeal.Read
import proofs.«141408_j23098334118568_1_alg».proof.Proof.Layer

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Layer (rowOf colOf)

/-- The left operand of either matrix product is read at row r of the output index and column k … -/
theorem lidx_eq (i : S100000x64.Idx) (k : Fin 64) : lidx_main_v14 i k = ix2 (rowOf i) k :=
  funext fun a => Fin.ext (by match a with | ⟨0, _⟩ => rfl | ⟨1, _⟩ => rfl)
theorem lidx_eq' (i : S100000x64.Idx) (k : Fin 64) : lidx_main_v19 i k = ix2 (rowOf i) k :=
  funext fun a => Fin.ext (by match a with | ⟨0, _⟩ => rfl | ⟨1, _⟩ => rfl)
/-- … the right operand at row k and the output's column c … -/
theorem ridx_eq (i : S100000x64.Idx) (k : Fin 64) : ridx_main_v14 i k = ix2 k (colOf i) :=
  funext fun a => Fin.ext (by match a with | ⟨0, _⟩ => rfl | ⟨1, _⟩ => rfl)
theorem ridx_eq' (i : S100000x64.Idx) (k : Fin 64) : ridx_main_v19 i k = ix2 k (colOf i) :=
  funext fun a => Fin.ext (by match a with | ⟨0, _⟩ => rfl | ⟨1, _⟩ => rfl)
/-- … and each bias, broadcast twice, at the output's column c. -/
theorem bidx_eq (i : S100000x64.Idx) : idx_main_v15 (idx_main_v16 i) = ix1 (colOf i) :=
  funext fun a => Fin.ext (by match a with | ⟨0, _⟩ => rfl)
theorem bidx_eq' (i : S100000x64.Idx) : idx_main_v20 (idx_main_v21 i) = ix1 (colOf i) :=
  funext fun a => Fin.ext (by match a with | ⟨0, _⟩ => rfl)

/-- One entry of the result, over ANY aggregated array X with A = features + X and B = X ∘ features entry by entry:
    the two sums over the contraction position with the biases added are `Layer.out` at that entry. -/
theorem result_at (x3 : (⟨S100000x64, .f32⟩ : BufTy).Contents (Elt Ideal)) (x4 : (⟨S64x64, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal)) (A B X : (⟨S100000x64, .f32⟩ : BufTy).Contents (Elt Ideal))
    (hA : ∀ j, A j = FloatOps.addf (F := Ideal) (φ := .f32) (x3 j) (X j))
    (hB : ∀ j, B j = FloatOps.mulf (F := Ideal) (φ := .f32) (X j) (x3 j)) (i : S100000x64.Idx) :
    FloatOps.addf (F := Ideal) (φ := .f32)
        (FloatOps.addf (F := Ideal) (φ := .f32) (∑ k : Fin 64, A (lidx_main_v14 i k) * x4 (ridx_main_v14 i k))
          (x5 (idx_main_v15 (idx_main_v16 i))))
        (FloatOps.addf (F := Ideal) (φ := .f32) (∑ k : Fin 64, B (lidx_main_v19 i k) * x6 (ridx_main_v19 i k))
          (x7 (idx_main_v20 (idx_main_v21 i))))
      = Cert.Layer.out x3 X x4 x6 x5 x7 i := by
  unfold Cert.Layer.out Cert.Layer.entry
  rw [Ideal.addf_def, Ideal.addf_def, Ideal.addf_def]
  refine congrArg₂ (· + ·) (congrArg₂ (· + ·) (Finset.sum_congr rfl fun k _ => ?_) (congrArg x5 (bidx_eq i)))
    (congrArg₂ (· + ·) (Finset.sum_congr rfl fun k _ => ?_) (congrArg x7 (bidx_eq' i)))
  · rw [lidx_eq, ridx_eq, hA]; rfl
  · rw [lidx_eq', ridx_eq', hB]; rfl

/-- THE REFERENCE'S RESULT is `Layer.out` of the features, the aggregated array X the program computes first, the two
    weight matrices and the two biases. -/
theorem result_eq (x0 x1 : (⟨S3200000, .i32⟩ : BufTy).Contents (Elt Ideal)) (x2 : (⟨S3200000, .f32⟩ : BufTy).Contents (Elt Ideal))
    (x3 : (⟨S100000x64, .f32⟩ : BufTy).Contents (Elt Ideal)) (x4 : (⟨S64x64, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal)) :
    val_main_v23 (F := Ideal) x0 x1 x2 x3 x4 x5 x6 x7
      = Cert.Layer.out x3 (val_main_v12 (F := Ideal) x0 x1 x2 x3) x4 x6 x5 x7 := by
  funext i
  rw [val_main_v23_apply, val_main_v17_apply, val_main_v22_apply, val_main_v14_apply, val_main_v19_apply,
    val_main_v16_apply, val_main_v15_apply, val_main_v21_apply, val_main_v20_apply]
  have hA := val_main_v13_apply (F := Ideal) x0 x1 x2 x3
  have hB := val_main_v18_apply (F := Ideal) x0 x1 x2 x3
  generalize val_main_v13 (F := Ideal) x0 x1 x2 x3 = A at hA ⊢
  generalize val_main_v18 (F := Ideal) x0 x1 x2 x3 = B at hB ⊢
  generalize val_main_v12 (F := Ideal) x0 x1 x2 x3 = X at hA hB ⊢
  exact result_at x3 x4 x5 x6 x7 A B X hA hB i

end Cert.ReferenceIdeal.RefValue

end
-- ==== Proof.Aggregate.lean ====
/-
  The aggregated array is the same in both programs.

  Before the call the kernel's host program gathers a feature row per edge (negative column indices wrapped by adding
  100000), scales each by its edge value and scatter-adds the scaled rows into the node rows of a zero array; the
  reference does exactly the same operations on the same arguments. So the array the call finds is, as a term, the
  reference's aggregation stage of the four arguments it reads. The gather and the scatter are never evaluated.
-/
import proofs.«141408_j23098334118568_1_alg».proof.Proof.Gen.KernelIdeal.Frame
import proofs.«141408_j23098334118568_1_alg».proof.Proof.Gen.ReferenceIdeal.Read
import Idealize.ShloMosaic.Lib.StableHlo.Run

noncomputable section

namespace Cert.Aggregate

open Idealize.ShloMosaic Idealize.ShloMosaic.TcCoe Idealize.SL.Sem Idealize.ShloMosaic.StableHlo

/-- The aggregation as the kernel's host program spells it, of the two index arguments, the edge values and the
    features. -/
def kernelAgg (a0 a1 : IVec Cert.KernelIdeal.S3200000 32) (a2 : FVec Ideal Cert.KernelIdeal.S3200000 .f32)
    (a3 : FVec Ideal Cert.KernelIdeal.S100000x64 .f32) : FVec Ideal Cert.KernelIdeal.S100000x64 .f32 :=
  open Cert.KernelIdeal Cert.KernelIdeal.Facts₀ in
  Host.scatterAdd scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0 a0)
    (mulf (broadcastInDim S3200000x64 ![0, 1] bcast_S3200000x1_S3200000x64_0_1 (broadcastInDim S3200000x1 ![0] bcast_S3200000_S3200000x1_0 a2))
      (Host.gather gather_S100000x64_S3200000x1_S3200000x64_1_0_n_n_0_1_164 a3
        (broadcastInDim S3200000x1 ![0] bcast_S3200000_S3200000x1_0
          (select (cmpi .slt a1 (broadcastInDim S3200000 ![] bcast_S_S3200000 (constantI S_ 32 0#32)))
            (addi a1 (broadcastInDim S3200000 ![] bcast_S_S3200000 (constantI S_ 32 100000#32))) a1))))

/-- The array the call finds in the aggregated window is that term of the launch contents. -/
theorem found (m : (ℓ : Loc Cert.KernelIdeal.nD Cert.KernelIdeal.τ Cert.KernelIdeal.sig) → Buf (Elt Ideal) ℓ) (c : Dev Cert.KernelIdeal.nD) :
    Cert.KernelIdeal.Gen.V m c Cert.KernelIdeal.main_v12
      = kernelAgg (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3)) := by
  dsimp only [Cert.KernelIdeal.Gen.V, Cert.KernelIdeal.Gen.hostOps0]; after_results; rfl

/-- The kernel's spelling and the reference's aggregation stage are one term. -/
theorem kernelAgg_eq (a0 a1 : IVec Cert.KernelIdeal.S3200000 32) (a2 : FVec Ideal Cert.KernelIdeal.S3200000 .f32)
    (a3 : FVec Ideal Cert.KernelIdeal.S100000x64 .f32) :
    kernelAgg a0 a1 a2 a3 = Cert.ReferenceIdeal.Read.val_main_v12 (F := Ideal) a0 a1 a2 a3 := by
  unfold kernelAgg Cert.ReferenceIdeal.Read.val_main_v12 Cert.ReferenceIdeal.Read.val_main_v10 Cert.ReferenceIdeal.Read.val_main_v11
    Cert.ReferenceIdeal.Read.val_main_v9 Cert.ReferenceIdeal.Read.val_main_v8 Cert.ReferenceIdeal.Read.val_main_v7
    Cert.ReferenceIdeal.Read.val_main_v6 Cert.ReferenceIdeal.Read.val_main_v5 Cert.ReferenceIdeal.Read.val_main_v4
    Cert.ReferenceIdeal.Read.val_main_v3 Cert.ReferenceIdeal.Read.val_main_v2 Cert.ReferenceIdeal.Read.val_main_v1
    Cert.ReferenceIdeal.Read.val_main_v0 Cert.ReferenceIdeal.Read.val_main_c Cert.ReferenceIdeal.Read.val_main_c_0
    Cert.ReferenceIdeal.Read.val_main_cst
  rfl

end Cert.Aggregate

end
-- ==== Proof.lean ====
/-
  The certificate: the bilinear graph layer's kernel against its reference, over the extended reals.

  Both programs first aggregate neighbour features on the host — gather a feature row per edge, scale it by the edge
  value, scatter-add into the node rows — with the same operations on the same arguments, giving one array X. The
  reference then computes ((features + X) · W1 + b1) + ((X ∘ features) · W2 + b2) with the host's matrix product; the
  kernel computes the same expression block by block over ten row blocks of 10000 nodes, with its own matrix product
  into a zero accumulator and with operands passed through a narrower float format, which over the extended reals is
  the identity. Entry by entry both are `Layer.out` of the features, X, the weights and the biases
  (`KernelValue.run` for the kernel, `RefValue.result_eq` for the reference), and X is the same term on both sides
  (`Aggregate`). No algebraic law is needed beyond reading both matrix products as the same sum, and the inputs'
  finiteness is not used.

  The kernel's two frames are the generated frame certificates; the reference's frame is its generated run with the
  result dropped; the idealization rewrote nothing, so its soundness conjunct is trivial.
-/
import proofs.«141408_j23098334118568_1_alg».proof.Defs
import proofs.«141408_j23098334118568_1_alg».proof.Proof.Gen.Kernel
import proofs.«141408_j23098334118568_1_alg».proof.Proof.Gen.Kernel.Skeleton
import proofs.«141408_j23098334118568_1_alg».proof.Proof.Gen.Kernel.Launch
import proofs.«141408_j23098334118568_1_alg».proof.Proof.Gen.Kernel.Points
import proofs.«141408_j23098334118568_1_alg».proof.Proof.Gen.Kernel.Frame
import proofs.«141408_j23098334118568_1_alg».proof.Proof.Gen.KernelIdeal
import proofs.«141408_j23098334118568_1_alg».proof.Proof.Gen.KernelIdeal.Skeleton
import proofs.«141408_j23098334118568_1_alg».proof.Proof.Gen.KernelIdeal.Launch
import proofs.«141408_j23098334118568_1_alg».proof.Proof.Gen.KernelIdeal.Points
import proofs.«141408_j23098334118568_1_alg».proof.Proof.Gen.KernelIdeal.Frame
import proofs.«141408_j23098334118568_1_alg».proof.Proof.Gen.ReferenceIdeal
import proofs.«141408_j23098334118568_1_alg».proof.Proof.Gen.Pre_finite_inputs
import proofs.«141408_j23098334118568_1_alg».proof.Proof.Gen.KernelIdeal.Value
import proofs.«141408_j23098334118568_1_alg».proof.Proof.Gen.ReferenceIdeal.Run
import proofs.«141408_j23098334118568_1_alg».proof.Proof.Gen.ReferenceIdeal.Read
import proofs.«141408_j23098334118568_1_alg».proof.Proof.KernelValue
import proofs.«141408_j23098334118568_1_alg».proof.Proof.RefValue
import proofs.«141408_j23098334118568_1_alg».proof.Proof.Aggregate
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the kernel ends with its output array at `Layer.out` of the features, the
    aggregated array, the weights and the biases, and the reference ends with its result at the same function of the same
    arrays: the aggregated arrays are one term of arguments that agree. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v23_eq, Cert.ReferenceIdeal.RefValue.result_eq, h0, h1, h2, h3, h4, h5, h6, h7,
    ← Cert.Aggregate.kernelAgg_eq, ← Cert.Aggregate.found m c]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
